-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S4096x256 : Shape := ⟨2, ![4096, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn {F : FTy → Type} [FloatOps F] (main_arg0 : FVec F S16384x256 .f32) (main_arg1 : FVec F S4096x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S16384x256 : Shape := ⟨2, ![16384, 256]⟩
abbrev S4096x256 : Shape := ⟨2, ![4096, 256]⟩
abbrev S16384x4096 : Shape := ⟨2, ![16384, 4096]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S16384x4096, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .f32 = 32 ∨ (Rect.block (s := S4096x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x256 : Shape := ⟨2, ![16384, 256]⟩
abbrev S4096x256 : Shape := ⟨2, ![4096, 256]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S4096x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x256_S16384_d1 : S16384x256.ReducesTo [1] S16384
  h_S_ : 0 < S_.numel
  bcast_S16384_S16384x1_0 : S16384.BroadcastsInDim S16384x1 (![0] : Fin 1 → Fin S16384x1.rank)
  reducesTo_S4096x256_S4096_d1 : S4096x256.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x256_S4096x256_S16384x4096_1_1_0_0_n_n_wf : DotDims.WF S16384x256 S4096x256 S16384x4096 [1] [1] [0] [0] [] []

variable [Facts₀]

def dot_S16384x256_S4096x256_S16384x4096_1_1_0_0_n_n : DotDims S16384x256 S4096x256 S16384x4096 where
  lhsContracting := [1]
  rhsContracting := [1]
  lhsNonContracting := [0]
  rhsNonContracting := [0]
  lhsBatch := []
  rhsBatch := []
  wf := dot_S16384x256_S4096x256_S16384x4096_1_1_0_0_n_n_wf

class Facts : Prop extends Facts₀ where

variable [Facts]
-- ==== Proof.Distance.lean ====
/-
  The pairwise Euclidean distance between the rows of two arrays, in its product form.

  For a : [n, K] and b : [c, K] over the extended reals, the entry (r, v) is
      √ max (‖a_r‖² + ‖b_v‖² − 2 · (a_r · b_v), 0)
  with ‖a_r‖² = ∑ k, a (r, k)², a_r · b_v = ∑ k, a (r, k) · b (v, k), the factor 2 and the floor 0 kept as the words the
  two programs print (the same word on both sides is never evaluated). The entry reads row r of a and row v of b and
  nothing else (`rowDist_congr`): this is what lets a tile of the result be computed from a tile of rows of each operand.
-/
import Idealize.ShloMosaic.PureOps.Ideal.Laws
import Idealize.ShloMosaic.Lib.ValueIdx

noncomputable section

open scoped BigOperators

namespace Cert.Distance

open Idealize.ShloMosaic Idealize.ShloMosaic.ValueIdx

variable {n c K : ℕ}

/-- ‖a_r‖²: the sum of the squares of row `r`. -/
def rowSq (a : (⟨2, ![n, K]⟩ : Shape).Idx → EReal) (r : Fin n) : EReal := ∑ k : Fin K, a (ix2 r k) * a (ix2 r k)

/-- a_r · b_v: the inner product of row `r` of `a` with row `v` of `b`. -/
def rowDot (a : (⟨2, ![n, K]⟩ : Shape).Idx → EReal) (b : (⟨2, ![c, K]⟩ : Shape).Idx → EReal) (r : Fin n) (v : Fin c) : EReal :=
  ∑ k : Fin K, a (ix2 r k) * b (ix2 v k)

/-- The distance between row `j 0` of `a` and row `j 1` of `b`, by ‖x − y‖² = ‖x‖² + ‖y‖² − 2 x·y floored at zero. -/
def rowDist (a : (⟨2, ![n, K]⟩ : Shape).Idx → EReal) (b : (⟨2, ![c, K]⟩ : Shape).Idx → EReal) : (⟨2, ![n, c]⟩ : Shape).Idx → EReal :=
  fun j => Ideal.sqrt (max (rowSq a (j 0) + rowSq b (j 1) - Ideal.ofBits .f32 0x40000000#32 * rowDot a b (j 0) (j 1))
    (Ideal.ofBits .f32 0x00000000#32))

/-- An entry depends on one row of each operand only: arrays (of any numbers of rows) that agree along the two rows
    an entry reads give the same entry. -/
theorem rowDist_congr {n' c' : ℕ} (a : (⟨2, ![n, K]⟩ : Shape).Idx → EReal) (b : (⟨2, ![c, K]⟩ : Shape).Idx → EReal)
    (a' : (⟨2, ![n', K]⟩ : Shape).Idx → EReal) (b' : (⟨2, ![c', K]⟩ : Shape).Idx → EReal)
    (j : (⟨2, ![n, c]⟩ : Shape).Idx) (j' : (⟨2, ![n', c']⟩ : Shape).Idx)
    (ha : ∀ k : Fin K, a (ix2 (j 0) k) = a' (ix2 (j' 0) k)) (hb : ∀ k : Fin K, b (ix2 (j 1) k) = b' (ix2 (j' 1) k)) :
    rowDist a b j = rowDist a' b' j' := by
  unfold rowDist rowSq rowDot
  simp only [ha, hb]

end Cert.Distance

end
-- ==== Proof.LibRowSums.lean ====
/-
  The sum along the lanes of an [a, b] array of extended reals, read at one row.

  Both spellings of the reduction — the vector unit's `multi_reduction <add>` over axis 1 from the zero word, and the
  host's `reduce` with an add body over axis 1 from an initial value — are, at the ideal values, the plain sum
  ∑ k < b, src (p, k)  of row p (the host's with its initial value added in front).
-/
import Idealize.ShloMosaic.PureOps.Ideal.Laws
import Idealize.ShloMosaic.Lib.ValueIdx

noncomputable section

open scoped BigOperators

namespace Cert.Lib.RowSums

open Idealize.ShloMosaic Idealize.ShloMosaic.ValueIdx

variable {a b : ℕ}

/-- Along row `p`, the source index the reduction over the lanes visits at lane `k` is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The vector unit's lane sum from the zero word, at row `p`: the sum of the row's entries. -/
theorem multiReduction_rows_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's add-reduce over the lanes from `init`, at row `p`: `init` plus the sum of the row's entries. -/
theorem hostReduceAdd_rows_apply (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.Lib.RowSums

end
-- ==== Proof.LibColumn.lean ====
/-
  A column kept beside a matrix (what `keepdims=True` leaves): a vector `[a]` cast to the column `[a, 1]`, and a column
  `[a, 1]` broadcast over the `b` lanes of `[a, b]`, each read at an index given by its coordinates; and the source index a
  reduction over the lanes of an `[a, b]` array folds over, by its coordinates.
-/
import Idealize.ShloMosaic.Lib.Pipeline.Value
import Idealize.ShloMosaic.Lib.ValueIdx
import Idealize.ShloMosaic.PureOps.Reduce

namespace Idealize.ShloMosaic.ValueIdx

open Idealize.ShloMosaic

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the row `p` of an `[a, b]` array, the source index a reduction along the lanes visits at lane `k` is `(p, k)`. -/
theorem lift_lanes_ix1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Idealize.ShloMosaic.ValueIdx
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.KernelBlock.lean ====
/-
  What the kernel body stores for one tile: the distances between the rows of its two loaded blocks.

  The body's one payload, entry (p, q) of a [1024, 1024] tile, over an x-block and a prototype-block of 1024 rows of 256:
  the lane sums of squares, kept as a column and as a row and broadcast over the tile; the matrix unit's product into
  the zero accumulator, contracting the shared axis of the two blocks (the change of format before it is the identity
  on extended reals); and  sqrt (max (· − 2 · ·, 0))  entry by entry.
-/
import proofs.«137873_j60799557042336_1_alg».proof.Proof.Gen.KernelIdeal.Skeleton
import proofs.«137873_j60799557042336_1_alg».proof.Proof.Distance
import proofs.«137873_j60799557042336_1_alg».proof.Proof.LibRowSums
import proofs.«137873_j60799557042336_1_alg».proof.Proof.LibColumn
import proofs.«137873_j60799557042336_1_alg».proof.Proof.LibDotRows
import Idealize.ShloMosaic.Lib.ValueLayout

noncomputable section

open scoped BigOperators

namespace Cert.KernelIdeal.KernelBlock

open Cert.KernelIdeal Cert.KernelIdeal.Gen Idealize.ShloMosaic Idealize.ShloMosaic.ValueIdx Cert.Distance

/-- The product's dimension numbers contract axis 1 of both blocks and keep their rows. -/
theorem rowsRows : Cert.Lib.DotRows.RowsRows dot_S1024x256_S1024x256_S1024x1024_1_1_0_0_n_n :=
  ⟨rfl, rfl, rfl, rfl, rfl, rfl⟩

/-- The column of row sums of squares, broadcast over the tile, at (p, q): ‖x_p‖². -/
theorem colSq_apply (x : FVec Ideal S1024x256 .f32) (p q : Fin 1024) :
    broadcastTo S1024x1024 (shapeCast S1024x1 (multiReduction .add [1] S1024 (mulf x x) 0x00000000#32 reduces_S1024x256_S1024 (.inl rfl) rfl)
      shapeCasts_S1024_S1024x1) broadcasts_S1024x1_S1024x1024 (ix2 p q) = rowSq x p :=
  (broadcastTo_a1_ab_apply _ broadcasts_S1024x1_S1024x1024 p q).trans
    ((shapeCast_a_a1_apply _ shapeCasts_S1024_S1024x1 p (0 : Fin 1)).trans
      (Cert.Lib.RowSums.multiReduction_rows_apply (mulf x x) 0x00000000#32 reduces_S1024x256_S1024 (.inl rfl) rfl p))

/-- The row of row sums of squares, broadcast over the tile, at (p, q): ‖y_q‖². -/
theorem rowSq_apply (y : FVec Ideal S1024x256 .f32) (p q : Fin 1024) :
    broadcastTo S1024x1024 (shapeCast S1x1024 (multiReduction .add [1] S1024 (mulf y y) 0x00000000#32 reduces_S1024x256_S1024 (.inl rfl) rfl)
      shapeCasts_S1024_S1x1024) broadcasts_S1x1024_S1024x1024 (ix2 p q) = rowSq y q :=
  (broadcastTo_1b_ab_apply _ broadcasts_S1x1024_S1024x1024 p q).trans
    ((shapeCast_a_1a_apply _ shapeCasts_S1024_S1x1024 (0 : Fin 1) q).trans
      (Cert.Lib.RowSums.multiReduction_rows_apply (mulf y y) 0x00000000#32 reduces_S1024x256_S1024 (.inl rfl) rfl q))

/-- The product of the two blocks (rows by rows, into zero) at (p, q): x_p · y_q. -/
theorem cross_apply (x y : FVec Ideal S1024x256 .f32) (p q : Fin 1024) :
    matmul (F := Ideal) dot_S1024x256_S1024x256_S1024x1024_1_1_0_0_n_n none (truncf .bf16 x bitsLt_bf16_f32) (truncf .bf16 y bitsLt_bf16_f32)
      (constant S1024x1024 .f32 0x00000000#32) (ix2 p q) = rowDot x y p q :=
  rowsRows.matmul_zero_apply none (truncf .bf16 x bitsLt_bf16_f32) (truncf .bf16 y bitsLt_bf16_f32) (ix2 p q)

/-- THE TILE: the body's payload is the distance array of its two blocks. -/
theorem pay_eq (x y : Vec Ideal S1024x256 .f32) :
    k0_pay1 (F := Ideal) x y = rowDist (n := 1024) (c := 1024) (K := 256) x y := by
  funext j
  obtain ⟨p, q, rfl⟩ : ∃ (p q : Fin 1024), j = ix2 p q := ⟨j 0, j 1, eq_ix2 j⟩
  unfold k0_pay1 rowDist
  exact congrArg Ideal.sqrt (congrArg₂ max
    (congrArg₂ (· - ·) (congrArg₂ (· + ·) (colSq_apply x p q) (rowSq_apply y p q))
      (congrArg (Ideal.ofBits .f32 0x40000000#32 * ·) (cross_apply x y p q))) rfl)

end Cert.KernelIdeal.KernelBlock

end
-- ==== Proof.ArrayDistance.lean ====
/-
  From tiles to the array: after the run the kernel's result array is the distance array of its two arguments.

  The grid is 16 × 4; point (i, j) stages rows 1024·i … of x, rows 1024·j … of the prototypes, and writes tile (i, j)
  of the [16384, 4096] result. Entry (p, q) of the tile written at (i, j) is the distance between row p of the x-block and
  row q of the prototype-block, that is between row 1024·i + p of x and row 1024·j + q of the prototypes: entry
  (1024·i + p, 1024·j + q) of the distance array (an entry reads one row of each operand and nothing else). The 64 tiles
  cover the result, tile (r / 1024, v / 1024) holding entry (r, v).
-/
import proofs.«137873_j60799557042336_1_alg».proof.Proof.Gen.KernelIdeal.Value
import proofs.«137873_j60799557042336_1_alg».proof.Proof.KernelBlock

set_option maxRecDepth 16384

noncomputable section

namespace Cert.KernelIdeal.ArrayDistance

open Cert.KernelIdeal Cert.KernelIdeal.Gen Idealize.ShloMosaic Idealize.ShloMosaic.TcCoe Idealize.SL.Sem
open Idealize.ShloMosaic.ValueIdx Cert.Distance
open Idealize.ShloMosaic.Pipeline (Dat)

variable (m : (ℓ : Loc nD τ sig) → Buf (Elt Ideal) ℓ) (ρ : Dev nD → PrngReg)

/-- The result array: the distances between the rows of the two arguments as the region finds them. -/
abbrev result (c : Dev nD) : S16384x4096.Idx → EReal :=
  rowDist (n := 16384) (c := 4096) (K := 256) (V m c main_arg0) (V m c main_arg1)

theorem origin : (![0, 0] : Fin 2 → Nat) = fun _ => 0 := funext fun a => by fin_cases a <;> rfl

/-- The index maps over the grid: the x window moves with the tile's row index, the prototype window with the tile's
    column index, both at lane block 0; the tile's indices stay below 16 and 4. -/
theorem index_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 3 :=
  (by decide +kernel : ∀ t : Fin grid0.N, _)

/-- Every tile of the 16 × 4 box is some point's. -/
theorem index_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-- WHAT POINT `t` WRITES BACK is tile `t` of the distance array of the arguments. -/
theorem flushed_eq (c : Dev nD) (t : Fin cfg0.N) :
    (dats m 0 c).flushed 2 t = ((cfg0.win 2).blk t).view.read (Elt Ideal) (result m c) := by
  rw [Cert.KernelIdeal.Value.flushed2]
  unfold out0_2
  rw [View.canon_unit_zero origin]
  simp only [View.ld_unit_zero (S := S1024x256) origin]
  obtain ⟨e0, e1, e2, e3, -, -⟩ := index_facts t
  funext j
  show k0_pay1 (F := Ideal) (iblk m c 0 t) (iblk m c 1 t) j = result m c (((cfg0.win 2).blk t).view.emb j)
  rw [KernelBlock.pay_eq (iblk m c 0 t) (iblk m c 1 t)]
  refine rowDist_congr (n := 1024) (c := 1024) (K := 256) (n' := 16384) (c' := 4096) (iblk m c 0 t) (iblk m c 1 t)
    (V m c main_arg0) (V m c main_arg1) j (((cfg0.win 2).blk t).view.emb j) (fun k => ?_) (fun k => ?_)
  · show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 256 + 1 * k.val = k.val; omega
  · show V m c main_arg1 (((cfg0.win 1).blk t).view.emb (ix2 (j 1) k)) = V m c main_arg1 (ix2 ((((cfg0.win 2).blk t).view.emb j) 1) k)
    refine congrArg (V m c main_arg1) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 256 + 1 * k.val = k.val; omega

/-- An index of the result is in point `t`'s tile iff each coordinate is in the tile's range on its axis. -/
theorem mem_tile (t : Fin cfg0.N) (i : S16384x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The tiles cover the result: entry (r, v) lies in tile (r / 1024, v / 1024). -/
theorem cover (i : S16384x4096.Idx) : ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := index_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE ARRAY after the run: the distance array of the arguments. -/
theorem final (c : Dev nD) : (dats m 0 c).arrAt 2 cfg0.N = result m c :=
  (dats m 0 c).arrAt_eq_of_cover 2 (result m c) (fun t _ => flushed_eq m c t) (cover)

/-- The kernel's run, read: the result array ends at the distance array of the launch contents of the arguments, which
    end unchanged. -/
theorem run : θ_run defs (onTc (τ := τ) (main (F := Ideal))) ⟨m, fun _ => 0, ρ⟩ fun r => ∀ c : Dev nD,
      r.2.mem ((c : Thread nD τ).loc main_v0)
        = rowDist (n := 16384) (c := 4096) (K := 256) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ArrayDistance

end
-- ==== Proof.RefDistance.lean ====
/-
  The reference computes the pairwise distance of the rows of its two arguments.

  Its last stage, read one operation at a time at an entry (r, v): the two keepdims row sums of squares — a host
  add-reduce from the zero word, broadcast as a column and as a row —, the `dot_general` contracting the shared axis,
  and `sqrt (max (· − 2 · ·, 0))` entry by entry. The only arithmetic is  0 + s = s  for the reduce's initial value.
-/
import proofs.«137873_j60799557042336_1_alg».proof.Proof.Gen.ReferenceIdeal.Read
import proofs.«137873_j60799557042336_1_alg».proof.Proof.Distance

noncomputable section

open scoped BigOperators

namespace Cert.ReferenceIdeal.RefDistance

open Cert.ReferenceIdeal Cert.ReferenceIdeal.Read Idealize.ShloMosaic Idealize.ShloMosaic.ValueIdx Cert.Distance

/-- The reference's result is the distance array of its arguments. -/
theorem result_eq (x : (⟨S16384x256, .f32⟩ : BufTy).Contents (Elt Ideal)) (p : (⟨S4096x256, .f32⟩ : BufTy).Contents (Elt Ideal)) :
    val_main_v15 (F := Ideal) x p = rowDist (n := 16384) (c := 4096) (K := 256) x p := by
  funext j
  obtain ⟨r, v, rfl⟩ : ∃ (r : Fin 16384) (v : Fin 4096), j = ix2 r v := ⟨j 0, j 1, eq_ix2 j⟩
  -- the rows the index functions of the layout stages land on
  have e1 : ∀ k : Fin 256, idx_main_v1 (idx_main_v2 (idx_main_v7 (ix2 r v))) k = ix2 r k := fun k =>
    funext fun a => Fin.ext (by match a with | ⟨0, _⟩ => rfl | ⟨1, _⟩ => rfl)
  have e4 : ∀ k : Fin 256, idx_main_v4 (idx_main_v5 (idx_main_v8 (ix2 r v))) k = ix2 v k := fun k =>
    funext fun a => Fin.ext (by match a with | ⟨0, _⟩ => rfl | ⟨1, _⟩ => rfl)
  have el : ∀ k : Fin 256, lidx_main_v6 (ix2 r v) k = ix2 r k := fun k =>
    funext fun a => Fin.ext (by match a with | ⟨0, _⟩ => rfl | ⟨1, _⟩ => rfl)
  have er : ∀ k : Fin 256, ridx_main_v6 (ix2 r v) k = ix2 v k := fun k =>
    funext fun a => Fin.ext (by match a with | ⟨0, _⟩ => rfl | ⟨1, _⟩ => rfl)
  rw [val_main_v15_apply, val_main_v14_apply, val_main_v12_apply, val_main_v9_apply, val_main_v11_apply,
    val_main_v7_apply, val_main_v2_apply, val_main_v1_apply, val_main_v8_apply, val_main_v5_apply, val_main_v4_apply,
    val_main_v6_apply, val_main_v10_apply, val_main_v13_apply]
  simp only [val_main_v0_apply, val_main_v3_apply, val_main_cst_apply, val_main_cst_0_apply, val_main_cst_1_apply,
    val_main_cst_2_apply, e1, e4, el, er, Ideal.hostUnary_sqrt_def, Ideal.maximumf_def, Ideal.subf_def, Ideal.addf_def,
    Ideal.mulf_def, Ideal.ofBits_def, Ideal.ofBits_zero_f32, zero_add, rowDist, rowSq, rowDot]

end Cert.ReferenceIdeal.RefDistance

end
-- ==== Proof.lean ====
/-
  Pairwise Euclidean distance between 16384 rows `x` and 4096 prototype rows, each of 256 lanes, in the product form
      out (r, v) = √ max (‖x_r‖² + ‖p_v‖² − 2 · (x_r · p_v), 0).

  The kernel computes the result one [1024, 1024] tile at a time on a 16 × 4 grid, from 1024 rows of each operand: lane
  sums of squares, a matrix-unit product of the two blocks contracting the lanes (cast to a narrower format first: the
  identity on extended reals), then the entrywise `sqrt (max (· − 2 · ·, 0))`. The reference does the same with whole-array
  host operations. Over the extended reals both are the one function `Distance.rowDist` of the argument arrays: an entry
  reads one row of each operand only, so a tile of the result is the distances between the rows of the two staged blocks
  (Proof/KernelBlock.lean), the 64 tiles cover the result (Proof/ArrayDistance.lean), and the reference's stages read at
  an entry give the same sums, its reduce's initial zero dropping out (Proof/RefDistance.lean). No law that needs finite
  entries is used: the two sides are the same expression of the same row sums. The idealization rewrote nothing, so
  `preserves` is trivial.
-/
import proofs.«137873_j60799557042336_1_alg».proof.Defs
import proofs.«137873_j60799557042336_1_alg».proof.Proof.Gen.Kernel
import proofs.«137873_j60799557042336_1_alg».proof.Proof.Gen.Kernel.Skeleton
import proofs.«137873_j60799557042336_1_alg».proof.Proof.Gen.Kernel.Launch
import proofs.«137873_j60799557042336_1_alg».proof.Proof.Gen.Kernel.Points
import proofs.«137873_j60799557042336_1_alg».proof.Proof.Gen.Kernel.Frame
import proofs.«137873_j60799557042336_1_alg».proof.Proof.Gen.KernelIdeal
import proofs.«137873_j60799557042336_1_alg».proof.Proof.Gen.KernelIdeal.Skeleton
import proofs.«137873_j60799557042336_1_alg».proof.Proof.Gen.KernelIdeal.Launch
import proofs.«137873_j60799557042336_1_alg».proof.Proof.Gen.KernelIdeal.Points
import proofs.«137873_j60799557042336_1_alg».proof.Proof.Gen.KernelIdeal.Frame
import proofs.«137873_j60799557042336_1_alg».proof.Proof.Gen.ReferenceIdeal
import proofs.«137873_j60799557042336_1_alg».proof.Proof.Gen.Pre_finite_inputs
import proofs.«137873_j60799557042336_1_alg».proof.Proof.Gen.KernelIdeal.Value
import proofs.«137873_j60799557042336_1_alg».proof.Proof.Gen.ReferenceIdeal.Run
import proofs.«137873_j60799557042336_1_alg».proof.Proof.Gen.ReferenceIdeal.Read
import proofs.«137873_j60799557042336_1_alg».proof.Proof.ArrayDistance
import proofs.«137873_j60799557042336_1_alg».proof.Proof.RefDistance
import Idealize.ShloMosaic.Adequacy
import Idealize.ShloMosaic.Init

noncomputable section

namespace Cert.Proof

open Idealize.ShloMosaic Idealize.SL.Sem

/-- The kernel as printed runs, its arguments unchanged. -/
theorem frame_kernel [Cert.Kernel.Facts] [Cert.Pre_finite_inputs.Facts] : Cert.frame_Kernel :=
  fun m ρ _ => Cert.Kernel.Gen.frame m ρ

/-- The idealized kernel runs, its arguments unchanged. -/
theorem frame_kernelIdeal [Cert.KernelIdeal.Facts] [Cert.Pre_finite_inputs.Facts] : Cert.frame_KernelIdeal :=
  fun m ρ _ => Cert.KernelIdeal.Gen.frame m ρ

/-- The reference runs, its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the distance array of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrayDistance.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefDistance.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
